-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S3072 .f32) (main_arg8 : FVec F S1024 .f32) (main_arg9 : FVec F S1024 .f32) (main_arg10 : FVec F S1024 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024x3072 .f32) (main_arg5 : FVec F S1024x3072 .f32) (main_arg6 : FVec F S3072 .f32) (main_arg7 : FVec F S3072 .f32) (main_arg8 : FVec F S1024 .f32) (main_arg9 : FVec F S1024 .f32) (main_arg10 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024x3072 .f32 := Host.absf main_arg5
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x1024 .f32) (main_arg1 : FVec F S2048x1024 .f32) (main_arg2 : FVec F S1024x3072 .f32) (main_arg3 : FVec F S1024x3072 .f32) (main_arg4 : FVec F S1024x3072 .f32) (main_arg5 : FVec F S1024x3072 .f32) (main_arg6 : FVec F S3072 .f32) (main_arg7 : FVec F S3072 .f32) (main_arg8 : FVec F S1024 .f32) (main_arg9 : FVec F S1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_arg8 main_arg9 main_arg10 main_v13 main_v16
-- ==== Kernel.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 70
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S2048, .f32⟩
  | .hbm, ⟨16, _⟩ => ⟨S2048, .f32⟩
  | .hbm, ⟨17, _⟩ => ⟨S1024x2048, .bf16⟩
  | .hbm, ⟨18, _⟩ => ⟨S1024x2048, .bf16⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S1024x2048, .i1⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S1024x2048, .bf16⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x2048, .i1⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S1024x2048, .bf16⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .i1⟩
  | .hbm, ⟨57, _⟩ => ⟨S2048, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S2048, .f32⟩
  | .hbm, ⟨65, _⟩ => ⟨S1x2048, .f32⟩
  | .hbm, ⟨66, _⟩ => ⟨S1x2048, .f32⟩
  | .hbm, ⟨67, _⟩ => ⟨S1x1024, .f32⟩
  | .hbm, ⟨68, _⟩ => ⟨S1x1024, .f32⟩
  | .hbm, ⟨69, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1024x3072_S1024x2048_0_1024 : S1024x3072.Slices ![0, 1024] S1024x2048
  slices_S3072_S2048_1024 : S3072.Slices ![1024] S2048
  bitsLt_bf16_f32 : FTy.bits .bf16 < FTy.bits .f32
  bcast_S_S1024x2048 : S_.BroadcastsInDim S1024x2048 (![] : Fin 0 → Fin S1024x2048.rank)
  bcast_S_S2048 : S_.BroadcastsInDim S2048 (![] : Fin 0 → Fin S2048.rank)
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S2048x1024.size a
  hwx0_10 : ∀ i : grid0.Coords, EltTy.bits .f32 = 32 ∨ (Rect.block (s := S2048x1024) S512x1024.size (cc0_transform_10 i) (hinb0_10 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S2048x3072 : Shape := ⟨2, ![2048, 3072]⟩
abbrev S1x3072 : Shape := ⟨2, ![1, 3072]⟩
abbrev S_ : Shape := ⟨0, ![]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048x3072, .f32⟩
  | .hbm, ⟨12, _⟩ => ⟨S2048x3072, .f32⟩
  | .hbm, ⟨13, _⟩ => ⟨S2048x3072, .f32⟩
  | .hbm, ⟨14, _⟩ => ⟨S1x3072, .f32⟩
  | .hbm, ⟨15, _⟩ => ⟨S2048x3072, .f32⟩
  | .hbm, ⟨16, _⟩ => ⟨S2048x3072, .f32⟩
  | .hbm, ⟨17, _⟩ => ⟨S_, .f32⟩
  | .hbm, ⟨18, _⟩ => ⟨S1024x3072, .f32⟩
  | .hbm, ⟨19, _⟩ => ⟨S1024x3072, .f32⟩
  | .hbm, ⟨20, _⟩ => ⟨S1024x3072, .f32⟩
  | .hbm, ⟨21, _⟩ => ⟨S1024x3072, .f32⟩
  | .hbm, ⟨22, _⟩ => ⟨S1024x3072, .i1⟩
  | .hbm, ⟨23, _⟩ => ⟨S1024x3072, .f32⟩
  | .hbm, ⟨24, _⟩ => ⟨S1024x3072, .f32⟩
  | .hbm, ⟨25, _⟩ => ⟨S1024x3072, .f32⟩
  | .hbm, ⟨26, _⟩ => ⟨S1024x3072, .f32⟩
  | .hbm, ⟨27, _⟩ => ⟨S1024x3072, .f32⟩
  | .hbm, ⟨28, _⟩ => ⟨S1024x3072, .f32⟩
  | .hbm, ⟨29, _⟩ => ⟨S1024x3072, .f32⟩
  | .hbm, ⟨30, _⟩ => ⟨S1024x3072, .f32⟩
  | .hbm, ⟨31, _⟩ => ⟨S1024x3072, .f32⟩
  | .hbm, ⟨32, _⟩ => ⟨S_, .f32⟩
  | .hbm, ⟨33, _⟩ => ⟨S1024x3072, .f32⟩
  | .hbm, ⟨34, _⟩ => ⟨S1024x3072, .f32⟩
  | .hbm, ⟨35, _⟩ => ⟨S1024x3072, .f32⟩
  | .hbm, ⟨36, _⟩ => ⟨S1024x3072, .f32⟩
  | .hbm, ⟨37, _⟩ => ⟨S1024x3072, .i1⟩
  | .hbm, ⟨38, _⟩ => ⟨S1024x3072, .f32⟩
  | .hbm, ⟨39, _⟩ => ⟨S1024x3072, .f32⟩
  | .hbm, ⟨40, _⟩ => ⟨S1024x3072, .f32⟩
  | .hbm, ⟨41, _⟩ => ⟨S1024x3072, .f32⟩
  | .hbm, ⟨42, _⟩ => ⟨S1024x3072, .f32⟩
  | .hbm, ⟨43, _⟩ => ⟨S1024x3072, .f32⟩
  | .hbm, ⟨44, _⟩ => ⟨S1024x3072, .f32⟩
  | .hbm, ⟨45, _⟩ => ⟨S1024x3072, .f32⟩
  | .hbm, ⟨46, _⟩ => ⟨S1024x3072, .f32⟩
  | .hbm, ⟨47, _⟩ => ⟨S_, .f32⟩
  | .hbm, ⟨48, _⟩ => ⟨S3072, .f32⟩
  | .hbm, ⟨49, _⟩ => ⟨S3072, .f32⟩
  | .hbm, ⟨50, _⟩ => ⟨S3072, .f32⟩
  | .hbm, ⟨51, _⟩ => ⟨S3072, .f32⟩
  | .hbm, ⟨52, _⟩ => ⟨S3072, .i1⟩
  | .hbm, ⟨53, _⟩ => ⟨S3072, .f32⟩
  | .hbm, ⟨54, _⟩ => ⟨S3072, .f32⟩
  | .hbm, ⟨55, _⟩ => ⟨S3072, .f32⟩
  | .hbm, ⟨56, _⟩ => ⟨S3072, .f32⟩
  | .hbm, ⟨57, _⟩ => ⟨S3072, .f32⟩
  | .hbm, ⟨58, _⟩ => ⟨S3072, .f32⟩
  | .hbm, ⟨59, _⟩ => ⟨S3072, .f32⟩
  | .hbm, ⟨60, _⟩ => ⟨S3072, .f32⟩
  | .hbm, ⟨61, _⟩ => ⟨S2048x1024, .f32⟩
  | .hbm, ⟨62, _⟩ => ⟨S2048x3072, .f32⟩
  | .hbm, ⟨63, _⟩ => ⟨S2048x1024, .f32⟩
  | .hbm, ⟨64, _⟩ => ⟨S2048x3072, .f32⟩
  | .hbm, ⟨65, _⟩ => ⟨S2048x3072, .f32⟩
  | .hbm, ⟨66, _⟩ => ⟨S1x3072, .f32⟩
  | .hbm, ⟨67, _⟩ => ⟨S2048x3072, .f32⟩
  | .hbm, ⟨68, _⟩ => ⟨S2048x3072, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048x1024, .f32⟩
  | .hbm, ⟨86, _⟩ => ⟨S2048x1024, .f32⟩
  | .hbm, ⟨87, _⟩ => ⟨S1x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S2048x1024, .f32⟩
  | .hbm, ⟨95, _⟩ => ⟨S2048x1024, .f32⟩
  | .hbm, ⟨96, _⟩ => ⟨S_, .f32⟩
  | .hbm, ⟨97, _⟩ => ⟨S2048x1024, .f32⟩
  | .hbm, ⟨98, _⟩ => ⟨S2048x1024, .f32⟩
  | .hbm, ⟨99, _⟩ => ⟨S1x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S_, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v6 : Ref sig .tc := ⟨.hbm, 30, rfl⟩
abbrev main_v7 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v8 : Ref sig .tc := ⟨.hbm, 45, rfl⟩
abbrev main_v9 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst : Ref sig .tc := ⟨.hbm, 81, rfl⟩
abbrev main_v31 : Ref sig .tc := ⟨.hbm, 82, rfl⟩
abbrev main_v32 : Ref sig .tc := ⟨.hbm, 83, rfl⟩
abbrev main_cst_0 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_1 : Ref sig .tc := ⟨.hbm, 93, rfl⟩
abbrev main_v41 : Ref sig .tc := ⟨.hbm, 94, rfl⟩
abbrev main_v42 : Ref sig .tc := ⟨.hbm, 95, rfl⟩
abbrev main_cst_2 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_3 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩

abbrev nD : Nat := 1
abbrev τ : Topo := Topo.v7x

variable {F : FTy → Type} [FloatOps F]

class Facts₀ : Prop where
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  bcast_S_S1024x3072 : S_.BroadcastsInDim S1024x3072 (![] : Fin 0 → Fin S1024x3072.rank)
  bcast_S_S3072 : S_.BroadcastsInDim S3072 (![] : Fin 0 → Fin S3072.rank)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  dot_S2048x1024_S1024x3072_S2048x3072_1_0_0_1_n_n_wf : DotDims.WF S2048x1024 S1024x3072 S2048x3072 [1] [0] [0] [1] [] []

variable [Facts₀]

def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«115583_j39084202394377_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.Spec.lean ====
/-
  The cell of a Bayesian GRU in its local-reparameterisation form, as one function of the argument arrays, entry by entry.

  For a batch row r and a gate column j of the three-gate weight arrays (j < 3072), the MEAN of the pre-activation is
      mean r j   = (Σₖ x(r,k)·Wμ(k,j) + Σₖ h(r,k)·Uμ(k,j)) + bμ(j)
  and its SPREAD is
      spread r j = (Σₖ x(r,k)²·sp(Wρ(k,j))² + Σₖ h(r,k)²·sp(Uρ(k,j))²) + sp(bρ(j)),
  where sp is the softplus in the spelling both programs use, max(t, 0) + log1p(exp(−|t|)), guarded by a test t ≠ t that
  never fires on the extended reals. The three gates occupy the column ranges [0,1024), [1024,2048), [2048,3072). The
  update gate and the candidate state at (r, c), c < 1024, are
      u  = logistic(mean r (1024+c) + spread r (1024+c) · εᵤ(c)),
      h̃ = tanh    (mean r (2048+c) + spread r (2048+c) · εₕ(c)),
  and the new state is  u · h(r,c) + (1 − u) · h̃.  The first column range (the reset gate) enters no entry of the result.
  Every sum keeps the order in which both programs add, so nothing here asks the entries to be finite.
-/
import Idealize.ShloMosaic.PureOps.Ideal
import Idealize.ShloMosaic.Lib.ValueIdx
import proofs.«115583_j39084202394377_1_alg».proof.Proof.LibConsts

noncomputable section

namespace Cert.Gru

open Idealize.ShloMosaic Idealize.ShloMosaic.ValueIdx

/-- The float word of +0.0, which the softplus compares and adds with. -/
abbrev zeroW : Ideal .f32 := FloatOps.ofBits (F := Ideal) .f32 0x00000000#32
/-- The float word of 1.0. -/
abbrev oneW : Ideal .f32 := FloatOps.ofBits (F := Ideal) .f32 0x3F800000#32

/-- The softplus of one entry, operation by operation as the source spells it: with d = t − 0, the value is t + 0 where
    d ≠ d and max(t, 0) + log1p(exp(−|d|)) elsewhere. -/
def sp (t : Ideal .f32) : Ideal .f32 :=
  Scalar.select (FloatOps.cmpf .une (FloatOps.subf t zeroW) (FloatOps.subf t zeroW)) (FloatOps.addf t zeroW)
    (FloatOps.addf (FloatOps.maximumf t zeroW)
      (FloatOps.hostUnary .log1p (FloatOps.hostUnary .exp (FloatOps.hostNegf (FloatOps.hostAbsf (FloatOps.subf t zeroW))))))

section
variable (x h : FVec Ideal ⟨2, ![2048, 1024]⟩ .f32)
variable (Wm Wr Um Ur : FVec Ideal ⟨2, ![1024, 3072]⟩ .f32)
variable (bm br : FVec Ideal ⟨1, ![3072]⟩ .f32)
variable (eu eh : FVec Ideal ⟨1, ![1024]⟩ .f32)

/-- The mean of the pre-activation of batch row r at gate column j. -/
def mean (r : Fin 2048) (j : Fin 3072) : EReal :=
  (∑ k : Fin 1024, x (ix2 r k) * Wm (ix2 k j) + ∑ k : Fin 1024, h (ix2 r k) * Um (ix2 k j)) + bm (ix1 j)

/-- The spread of the pre-activation of batch row r at gate column j. -/
def spread (r : Fin 2048) (j : Fin 3072) : EReal :=
  (∑ k : Fin 1024, (x (ix2 r k) * x (ix2 r k)) * (sp (Wr (ix2 k j)) * sp (Wr (ix2 k j)))
    + ∑ k : Fin 1024, (h (ix2 r k) * h (ix2 r k)) * (sp (Ur (ix2 k j)) * sp (Ur (ix2 k j)))) + sp (br (ix1 j))

/-- Column c of the update gate among the three gates' columns. -/
def colU (c : Fin 1024) : Fin 3072 := ⟨1024 + c.val, by have := c.isLt; omega⟩
/-- Column c of the candidate state among the three gates' columns. -/
def colH (c : Fin 1024) : Fin 3072 := ⟨2048 + c.val, by have := c.isLt; omega⟩

/-- The update gate at (r, c). -/
def gateU (r : Fin 2048) (c : Fin 1024) : EReal :=
  Ideal.logistic (mean x h Wm Um bm r (colU c) + spread x h Wr Ur br r (colU c) * eu (ix1 c))

/-- The candidate state at (r, c). -/
def cand (r : Fin 2048) (c : Fin 1024) : EReal :=
  Ideal.tanh (mean x h Wm Um bm r (colH c) + spread x h Wr Ur br r (colH c) * eh (ix1 c))

/-- The new state at (r, c). -/
def cell (r : Fin 2048) (c : Fin 1024) : EReal :=
  gateU x h Wm Wr Um Ur bm br eu r c * h (ix2 r c)
    + (oneW - gateU x h Wm Wr Um Ur bm br eu r c) * cand x h Wm Wr Um Ur bm br eh r c

/-- The new state as an array. -/
def newState : FVec Ideal ⟨2, ![2048, 1024]⟩ .f32 :=
  fun i => cell x h Wm Wr Um Ur bm br eu eh (i 0) (i 1)

end

/-- The word of 1.0 denotes the number one. -/
theorem oneW_eq : oneW = 1 := Cert.LibConsts.ofBits_one

/-- The logistic function is the quotient the host spells, 1 / (1 + exp(−t)), with the word of 1.0 for both ones. -/
theorem logistic_host (t : EReal) :
    Ideal.div oneW (oneW + Ideal.exp (-t)) = Ideal.logistic t := by
  rw [oneW_eq]; rfl

end Cert.Gru

end
-- ==== Proof.KernelCell.lean ====
/-
  One block of the kernel's output, entry by entry. A grid point loads a block of 512 batch rows of x and of h, the
  mean weights and the squared-softplus weights restricted to the update gate's and the candidate's columns (2048 of
  the 3072), the two bias rows restricted likewise, and the two noise rows. The body's two accumulations are block
  products of the row block with the whole weight block, read at (p, j) as sums over the 1024 inner coordinates; the
  update gate reads column j = q of them and the candidate column j = 1024 + q. When the loaded blocks are the
  restrictions just named of the argument arrays, entry (p, q) of the block is the cell's new state at the batch row
  the block's row p stands for and at column q.
-/
import proofs.«115583_j39084202394377_1_alg».proof.Proof.Gen.KernelIdeal.Value
import proofs.«115583_j39084202394377_1_alg».proof.Proof.LibDotSum
import proofs.«115583_j39084202394377_1_alg».proof.Proof.Spec
import Idealize.ShloMosaic.Lib.ValueLayout
import Idealize.ShloMosaic.Lib.Pipeline.Value

noncomputable section

namespace Cert.KernelIdeal.Cell

open Cert.KernelIdeal Cert.KernelIdeal.Gen Cert.KernelIdeal.Value Idealize.ShloMosaic Idealize.ShloMosaic.ValueIdx Cert.Gru

/-- Column q of the update gate inside the two kept gates' 2048 columns. -/
def lo (q : Fin 1024) : Fin 2048 := ⟨q.val, by have := q.isLt; omega⟩
/-- Column q of the candidate inside the two kept gates' 2048 columns. -/
def hi (q : Fin 1024) : Fin 2048 := ⟨q.val + 1024, by have := q.isLt; omega⟩
/-- A kept column among all three gates' columns: the reset gate's 1024 columns come first. -/
def up (j : Fin 2048) : Fin 3072 := ⟨1024 + j.val, by have := j.isLt; omega⟩

theorem up_lo (q : Fin 1024) : up (lo q) = colU q := rfl
theorem up_hi (q : Fin 1024) : up (hi q) = colH q :=
  Fin.ext (by show 1024 + (q.val + 1024) = 2048 + q.val; omega)

/-- The mean accumulation of a block at (p, j): the two block products and the bias row. -/
theorem mean_block (P0 P1 : Vec Ideal S512x1024 .f32) (P2 P3 : Vec Ideal S1024x2048 .bf16) (P4 : Vec Ideal S1x2048 .f32)
    (p : Fin 512) (j : Fin 2048) :
    k0_pay2 P0 P1 P2 P3 P4 (ix2 p j)
      = (∑ k : Fin 1024, P0 (ix2 p k) * P2 (ix2 k j) + ∑ k : Fin 1024, P1 (ix2 p k) * P3 (ix2 k j))
        + P4 (ix2 (0 : Fin 1) j) := by
  unfold k0_pay2
  have hB2 : shapeCast S1024x2048 P2 shapeCasts_S1024x2048_S1024x2048 = P2 := shapeCast_self _ _
  have hB3 : shapeCast S1024x2048 P3 shapeCasts_S1024x2048_S1024x2048 = P3 := shapeCast_self _ _
  have hb : broadcastTo S512x2048 (shapeCast S1x2048 P4 shapeCasts_S1x2048_S1x2048) broadcasts_S1x2048_S512x2048 (ix2 p j)
      = P4 (ix2 (0 : Fin 1) j) := by
    rw [shapeCast_self]; exact broadcastTo_1b_ab_apply _ _ p j
  simp only [addf_apply, hB2, hB3, hb]
  rw [Cert.Lib.matmul_rc_apply _ rfl rfl rfl rfl rfl rfl, Cert.Lib.matmul_rc_apply _ rfl rfl rfl rfl rfl rfl]
  rfl

/-- The spread accumulation of a block at (p, j): the two block products of the squared rows and the bias row. -/
theorem spread_block (P0 P1 : Vec Ideal S512x1024 .f32) (P5 P6 : Vec Ideal S1024x2048 .bf16) (P7 : Vec Ideal S1x2048 .f32)
    (p : Fin 512) (j : Fin 2048) :
    k0_pay3 P0 P1 P5 P6 P7 (ix2 p j)
      = (∑ k : Fin 1024, (P0 (ix2 p k) * P0 (ix2 p k)) * P5 (ix2 k j)
          + ∑ k : Fin 1024, (P1 (ix2 p k) * P1 (ix2 p k)) * P6 (ix2 k j))
        + P7 (ix2 (0 : Fin 1) j) := by
  unfold k0_pay3
  have hB5 : shapeCast S1024x2048 P5 shapeCasts_S1024x2048_S1024x2048 = P5 := shapeCast_self _ _
  have hB6 : shapeCast S1024x2048 P6 shapeCasts_S1024x2048_S1024x2048 = P6 := shapeCast_self _ _
  have hb : broadcastTo S512x2048 (shapeCast S1x2048 P7 shapeCasts_S1x2048_S1x2048) broadcasts_S1x2048_S512x2048 (ix2 p j)
      = P7 (ix2 (0 : Fin 1) j) := by
    rw [shapeCast_self]; exact broadcastTo_1b_ab_apply _ _ p j
  simp only [addf_apply, hB5, hB6, hb]
  rw [Cert.Lib.matmul_rc_apply _ rfl rfl rfl rfl rfl rfl, Cert.Lib.matmul_rc_apply _ rfl rfl rfl rfl rfl rfl]
  rfl

section
variable (x h : FVec Ideal ⟨2, ![2048, 1024]⟩ .f32)
variable (Wm Wr Um Ur : FVec Ideal ⟨2, ![1024, 3072]⟩ .f32)
variable (bm br : FVec Ideal ⟨1, ![3072]⟩ .f32)
variable (eu eh : FVec Ideal ⟨1, ![1024]⟩ .f32)

/-- Entry y of the block a grid point leaves is the cell's new state at batch row r and column cq, when row (y 0) of
    the loaded row blocks is row r of x and of h, cq is y's column, the loaded weight blocks are the kept columns of the
    mean weights and of the squared softplus of the spread weights, and the loaded rows are the kept biases and the noises. -/
theorem block_cell (P0 P1 : Vec Ideal S512x1024 .f32) (P2 P3 : Vec Ideal S1024x2048 .bf16) (P4 : Vec Ideal S1x2048 .f32)
    (P5 P6 : Vec Ideal S1024x2048 .bf16) (P7 : Vec Ideal S1x2048 .f32) (P8 P9 : Vec Ideal S1x1024 .f32)
    (y : S512x1024.Idx) (r : Fin 2048) (cq : Fin 1024) (hcq : cq.val = (y 1).val)
    (h0 : ∀ k : Fin 1024, P0 (ix2 (y 0) k) = x (ix2 r k))
    (h1 : ∀ k : Fin 1024, P1 (ix2 (y 0) k) = h (ix2 r k))
    (h2 : ∀ (k : Fin 1024) (j : Fin 2048), P2 (ix2 k j) = Wm (ix2 k (up j)))
    (h3 : ∀ (k : Fin 1024) (j : Fin 2048), P3 (ix2 k j) = Um (ix2 k (up j)))
    (h4 : ∀ j : Fin 2048, P4 (ix2 (0 : Fin 1) j) = bm (ix1 (up j)))
    (h5 : ∀ (k : Fin 1024) (j : Fin 2048), P5 (ix2 k j) = sp (Wr (ix2 k (up j))) * sp (Wr (ix2 k (up j))))
    (h6 : ∀ (k : Fin 1024) (j : Fin 2048), P6 (ix2 k j) = sp (Ur (ix2 k (up j))) * sp (Ur (ix2 k (up j))))
    (h7 : ∀ j : Fin 2048, P7 (ix2 (0 : Fin 1) j) = sp (br (ix1 (up j))))
    (h8 : ∀ c : Fin 1024, P8 (ix2 (0 : Fin 1) c) = eu (ix1 c))
    (h9 : ∀ c : Fin 1024, P9 (ix2 (0 : Fin 1) c) = eh (ix1 c)) :
    E10 P0 P1 P2 P3 P4 P5 P6 P7 P8 P9 y = cell x h Wm Wr Um Ur bm br eu eh r cq := by
  obtain ⟨p, q, rfl⟩ : ∃ (p : Fin 512) (q : Fin 1024), y = ix2 p q := ⟨y 0, y 1, eq_ix2 y⟩
  obtain rfl : cq = q := Fin.ext hcq
  have elo : ∀ f : S512x1024.Idx → S512x2048.Idx, f = ix10_0 ∨ f = ix10_1 ∨ f = ix10_4 ∨ f = ix10_5 →
      f (ix2 p cq) = ix2 p (lo cq) := by
    intro f hf
    rcases hf with rfl | rfl | rfl | rfl <;>
      exact funext fun a => match a with | ⟨0, _⟩ => rfl | ⟨1, _⟩ => rfl
  have ehi : ∀ f : S512x1024.Idx → S512x2048.Idx, f = ix10_7 ∨ f = ix10_8 → f (ix2 p cq) = ix2 p (hi cq) := by
    intro f hf
    rcases hf with rfl | rfl <;>
      exact funext fun a => match a with | ⟨0, _⟩ => rfl | ⟨1, _⟩ => rfl
  have erow : ∀ f : S512x1024.Idx → S1x1024.Idx, f = ix10_2 ∨ f = ix10_6 ∨ f = ix10_9 →
      f (ix2 p cq) = ix2 (0 : Fin 1) cq := by
    intro f hf
    rcases hf with rfl | rfl | rfl <;>
      exact funext fun a => match a with | ⟨0, _⟩ => rfl | ⟨1, _⟩ => rfl
  have e3 : ix10_3 (ix2 p cq) = ix2 p cq := funext fun a => match a with | ⟨0, _⟩ => rfl | ⟨1, _⟩ => rfl
  have h0' : ∀ k : Fin 1024, P0 (ix2 p k) = x (ix2 r k) := h0
  have h1' : ∀ k : Fin 1024, P1 (ix2 p k) = h (ix2 r k) := h1
  show FloatOps.addf (FloatOps.mulf (FloatOps.logistic (FloatOps.addf (k0_pay2 P0 P1 P2 P3 P4 (ix10_0 (ix2 p cq)))
      (FloatOps.mulf (k0_pay3 P0 P1 P5 P6 P7 (ix10_1 (ix2 p cq))) (P8 (ix10_2 (ix2 p cq)))))) (P1 (ix10_3 (ix2 p cq))))
    (FloatOps.mulf (FloatOps.subf (Scalar.ofBits .f32 0x3F800000#32) (FloatOps.logistic (FloatOps.addf
      (k0_pay2 P0 P1 P2 P3 P4 (ix10_4 (ix2 p cq))) (FloatOps.mulf (k0_pay3 P0 P1 P5 P6 P7 (ix10_5 (ix2 p cq))) (P8 (ix10_6 (ix2 p cq)))))))
      (FloatOps.tanh (FloatOps.addf (k0_pay2 P0 P1 P2 P3 P4 (ix10_7 (ix2 p cq)))
        (FloatOps.mulf (k0_pay3 P0 P1 P5 P6 P7 (ix10_8 (ix2 p cq))) (P9 (ix10_9 (ix2 p cq))))))) = _
  rw [elo ix10_0 (.inl rfl), elo ix10_1 (.inr (.inl rfl)), elo ix10_4 (.inr (.inr (.inl rfl))), elo ix10_5 (.inr (.inr (.inr rfl))),
    ehi ix10_7 (.inl rfl), ehi ix10_8 (.inr rfl), erow ix10_2 (.inl rfl), erow ix10_6 (.inr (.inl rfl)), erow ix10_9 (.inr (.inr rfl)), e3,
    mean_block, mean_block, spread_block, spread_block]
  simp only [h0', h1', h2, h3, h4, h5, h6, h7, h8, h9, up_lo, up_hi]
  rfl

end

end Cert.KernelIdeal.Cell

end
-- ==== Proof.KernelRun.lean ====
/-
  The kernel's run, with its result array named: the new state of the cell.
  Before the region the host cuts the reset gate's columns off the weight and bias arrays, takes the softplus of the
  spread parameters and squares it, and lays the bias and noise vectors out as single rows; those arrays are read
  here at an index. Grid point t stages rows [512·t, 512·t + 512) of x and of h and the whole of every other array,
  and writes back the same rows of the result, so entry y of what it writes is the cell's new state at row
  512·t + y₀ and column y₁. The four points' blocks cover the result array.
-/
import proofs.«115583_j39084202394377_1_alg».proof.Proof.KernelCell
import Idealize.ShloMosaic.Lib.StableHlo.Run

set_option maxRecDepth 16384

noncomputable section

namespace Cert.KernelIdeal.RunValue

open Cert.KernelIdeal Cert.KernelIdeal.Gen Cert.KernelIdeal.Value Cert.KernelIdeal.Cell
open Idealize.ShloMosaic Idealize.ShloMosaic.TcCoe Idealize.SL.Sem Idealize.ShloMosaic.ValueIdx Idealize.ShloMosaic.StableHlo Cert.Gru
open Idealize.ShloMosaic.Pipeline (Dat)

variable (m : (ℓ : Loc nD τ sig) → Buf (Elt Ideal) ℓ) (ρ : Dev nD → PrngReg)

/-! ## The argument arrays -/

abbrev aX (c : Dev nD) : S2048x1024.Idx → EReal := m ((c : Thread nD τ).loc main_arg0)
abbrev aH (c : Dev nD) : S2048x1024.Idx → EReal := m ((c : Thread nD τ).loc main_arg1)
abbrev aWm (c : Dev nD) : S1024x3072.Idx → EReal := m ((c : Thread nD τ).loc main_arg2)
abbrev aWr (c : Dev nD) : S1024x3072.Idx → EReal := m ((c : Thread nD τ).loc main_arg3)
abbrev aUm (c : Dev nD) : S1024x3072.Idx → EReal := m ((c : Thread nD τ).loc main_arg4)
abbrev aUr (c : Dev nD) : S1024x3072.Idx → EReal := m ((c : Thread nD τ).loc main_arg5)
abbrev aBm (c : Dev nD) : S3072.Idx → EReal := m ((c : Thread nD τ).loc main_arg6)
abbrev aBr (c : Dev nD) : S3072.Idx → EReal := m ((c : Thread nD τ).loc main_arg7)
abbrev aEu (c : Dev nD) : S1024.Idx → EReal := m ((c : Thread nD τ).loc main_arg9)
abbrev aEh (c : Dev nD) : S1024.Idx → EReal := m ((c : Thread nD τ).loc main_arg10)

/-- The result array the kernel ends with. -/
abbrev result (c : Dev nD) : S2048x1024.Idx → EReal :=
  newState (aX m c) (aH m c) (aWm m c) (aWr m c) (aUm m c) (aUr m c) (aBm m c) (aBr m c) (aEu m c) (aEh m c)

/-! ## The arrays the host writes before the region, at an index -/

/-- The kept columns of a weight array: column j of the cut is column 1024 + j of the whole. -/
theorem cut_cols (W : S1024x3072.Idx → EReal) (k : Fin 1024) (j : Fin 2048) :
    extractStridedSlice S1024x2048 ![0, 1024] W slices_S1024x3072_S1024x2048_0_1024 (ix2 k j) = W (ix2 k (up j)) :=
  slice2_axis1_apply 1024 W slices_S1024x3072_S1024x2048_0_1024 k j (up j) rfl

/-- The kept entries of a bias vector. -/
theorem cut_vec (b : S3072.Idx → EReal) (j : Fin 2048) :
    extractStridedSlice S2048 ![1024] b slices_S3072_S2048_1024 (ix1 j) = b (ix1 (up j)) :=
  extractStridedSlice_apply ![1024] b slices_S3072_S2048_1024 (ix1 j) (ix1 (up j)) (fun a => match a with | ⟨0, _⟩ => rfl)

theorem meanW_at (c : Dev nD) (k : Fin 1024) (j : Fin 2048) :
    (V m c main_v6 : S1024x2048.Idx → EReal) (ix2 k j) = aWm m c (ix2 k (up j)) := by
  dsimp only [V]
  simp only [hostOps0, hostOps0_1, hostOps0_2, hostOps0_3, hostOps0_4, hostOps0_5, hostOps0_6, List.flatten_cons, List.flatten_nil,
    List.append_nil, List.cons_append, List.nil_append]
  after_results
  exact cut_cols (aWm m c) k j

theorem meanU_at (c : Dev nD) (k : Fin 1024) (j : Fin 2048) :
    (V m c main_v7 : S1024x2048.Idx → EReal) (ix2 k j) = aUm m c (ix2 k (up j)) := by
  dsimp only [V]
  simp only [hostOps0, hostOps0_1, hostOps0_2, hostOps0_3, hostOps0_4, hostOps0_5, hostOps0_6, List.flatten_cons, List.flatten_nil,
    List.append_nil, List.cons_append, List.nil_append]
  after_results
  exact cut_cols (aUm m c) k j

set_option maxHeartbeats 4000000 in
theorem spreadW_at (c : Dev nD) (k : Fin 1024) (j : Fin 2048) :
    (V m c main_v10 : S1024x2048.Idx → EReal) (ix2 k j)
      = sp (aWr m c (ix2 k (up j))) * sp (aWr m c (ix2 k (up j))) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rw [← cut_cols (aWr m c) k j]
  rfl

set_option maxHeartbeats 4000000 in
theorem spreadU_at (c : Dev nD) (k : Fin 1024) (j : Fin 2048) :
    (V m c main_v13 : S1024x2048.Idx → EReal) (ix2 k j)
      = sp (aUr m c (ix2 k (up j))) * sp (aUr m c (ix2 k (up j))) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rw [← cut_cols (aUr m c) k j]
  rfl

theorem meanB_at (c : Dev nD) (j : Fin 2048) :
    (V m c main_v16 : S1x2048.Idx → EReal) (ix2 (0 : Fin 1) j) = aBm m c (ix1 (up j)) := by
  dsimp only [V]
  simp only [hostOps0, hostOps0_1, hostOps0_2, hostOps0_3, hostOps0_4, hostOps0_5, hostOps0_6, List.flatten_cons, List.flatten_nil,
    List.append_nil, List.cons_append, List.nil_append]
  after_results
  show shapeCast S1x2048 (extractStridedSlice S2048 ![1024] (aBm m c) slices_S3072_S2048_1024) shapeCasts_S2048_S1x2048 (ix2 (0 : Fin 1) j) = _
  rw [shapeCast_a_1a_apply]
  exact cut_vec (aBm m c) j

set_option maxHeartbeats 4000000 in
theorem spreadB_at (c : Dev nD) (j : Fin 2048) :
    (V m c main_v15 : S1x2048.Idx → EReal) (ix2 (0 : Fin 1) j) = sp (aBr m c (ix1 (up j))) := by
  dsimp only [V]
  simp only [hostOps0, hostOps0_1, hostOps0_2, hostOps0_3, hostOps0_4, hostOps0_5, hostOps0_6, List.flatten_cons, List.flatten_nil,
    List.append_nil, List.cons_append, List.nil_append]
  after_results_simp
  refine Eq.trans (shapeCast_a_1a_apply (a := 2048) _ shapeCasts_S2048_S1x2048 (0 : Fin 1) j) ?_
  rw [← cut_vec (aBr m c) j]
  rfl

theorem noiseU_at (c : Dev nD) (q : Fin 1024) :
    (V m c main_v17 : S1x1024.Idx → EReal) (ix2 (0 : Fin 1) q) = aEu m c (ix1 q) := by
  dsimp only [V]
  simp only [hostOps0, hostOps0_1, hostOps0_2, hostOps0_3, hostOps0_4, hostOps0_5, hostOps0_6, List.flatten_cons, List.flatten_nil,
    List.append_nil, List.cons_append, List.nil_append]
  after_results
  show shapeCast S1x1024 (aEu m c) shapeCasts_S1024_S1x1024 (ix2 (0 : Fin 1) q) = _
  exact shapeCast_a_1a_apply _ _ 0 q

theorem noiseH_at (c : Dev nD) (q : Fin 1024) :
    (V m c main_v18 : S1x1024.Idx → EReal) (ix2 (0 : Fin 1) q) = aEh m c (ix1 q) := by
  dsimp only [V]
  simp only [hostOps0, hostOps0_1, hostOps0_2, hostOps0_3, hostOps0_4, hostOps0_5, hostOps0_6, List.flatten_cons, List.flatten_nil,
    List.append_nil, List.cons_append, List.nil_append]
  after_results
  show shapeCast S1x1024 (aEh m c) shapeCasts_S1024_S1x1024 (ix2 (0 : Fin 1) q) = _
  exact shapeCast_a_1a_apply _ _ 0 q

/-! ## The blocks a grid point stages -/

theorem hz : (![0, 0] : Fin 2 → Nat) = fun _ => 0 := funext fun a => by fin_cases a <;> rfl

/-- The printed index maps over the four grid points: the row blocks of x, of h and of the result move with the
    point, and every other window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ (∀ a : Fin 2, win0_2.index t a = 0) ∧ (∀ a : Fin 2, win0_3.index t a = 0)
    ∧ (∀ a : Fin 2, win0_4.index t a = 0) ∧ (∀ a : Fin 2, win0_5.index t a = 0)
    ∧ (∀ a : Fin 2, win0_6.index t a = 0) ∧ (∀ a : Fin 2, win0_7.index t a = 0)
    ∧ (∀ a : Fin 2, win0_8.index t a = 0) ∧ (∀ a : Fin 2, win0_9.index t a = 0) :=
  (by decide +kernel : ∀ t : Fin grid0.N, _)

/-- Where entry y of point t's result block lies in the result array. -/
abbrev place (t : Fin cfg0.N) (y : S512x1024.Idx) : S2048x1024.Idx := ((cfg0.win 10).blk t).view.emb y

theorem place_row (t : Fin cfg0.N) (y : S512x1024.Idx) : (place t y 0).val = t.val * 512 + (y 0).val := by
  obtain ⟨-, -, -, -, f, -⟩ := idx_facts t
  show win0_10.index t (0 : Fin 2) * 512 + 1 * (y 0).val = _
  rw [f]; omega

theorem place_col (t : Fin cfg0.N) (y : S512x1024.Idx) : (place t y 1).val = (y 1).val := by
  obtain ⟨-, -, -, -, -, f, -⟩ := idx_facts t
  show win0_10.index t (1 : Fin 2) * 1024 + 1 * (y 1).val = _
  rw [f]; omega

/-- Row p of the block of x at point t is row 512·t + p of x. -/
theorem rowsX_at (c : Dev nD) (t : Fin cfg0.N) (y : S512x1024.Idx) (k : Fin 1024) :
    iblk m c 0 t (ix2 (y 0) k) = aX m c (ix2 (place t y 0) k) := by
  obtain ⟨f0, f1, -⟩ := idx_facts t
  show (V m c main_arg0 : S2048x1024.Idx → EReal) (((cfg0.win 0).blk t).view.emb (ix2 (y 0) k)) = _
  rw [V_main_arg0]
  refine congrArg (aX m c) (funext fun a => Fin.ext ?_)
  match a with
  | ⟨0, _⟩ => show win0_0.index t (0 : Fin 2) * 512 + 1 * (y 0).val = (place t y 0).val; rw [place_row, f0]; omega
  | ⟨1, _⟩ => show win0_0.index t (1 : Fin 2) * 1024 + 1 * k.val = k.val; rw [f1]; omega

/-- Row p of the block of h at point t is row 512·t + p of h. -/
theorem rowsH_at (c : Dev nD) (t : Fin cfg0.N) (y : S512x1024.Idx) (k : Fin 1024) :
    iblk m c 1 t (ix2 (y 0) k) = aH m c (ix2 (place t y 0) k) := by
  obtain ⟨-, -, f0, f1, -⟩ := idx_facts t
  show (V m c main_arg1 : S2048x1024.Idx → EReal) (((cfg0.win 1).blk t).view.emb (ix2 (y 0) k)) = _
  rw [V_main_arg1]
  refine congrArg (aH m c) (funext fun a => Fin.ext ?_)
  match a with
  | ⟨0, _⟩ => show win0_1.index t (0 : Fin 2) * 512 + 1 * (y 0).val = (place t y 0).val; rw [place_row, f0]; omega
  | ⟨1, _⟩ => show win0_1.index t (1 : Fin 2) * 1024 + 1 * k.val = k.val; rw [f1]; omega

/-- The block of a window staged whole is its array. -/
theorem whole2 (c : Dev nD) (t : Fin cfg0.N) (k : Fin 1024) (j : Fin 2048) :
    iblk m c 2 t (ix2 k j) = (V m c main_v6 : S1024x2048.Idx → EReal) (ix2 k j) := by
  obtain ⟨-, -, -, -, -, -, f, -⟩ := idx_facts t
  show (V m c main_v6 : S1024x2048.Idx → EReal) (((cfg0.win 2).blk t).view.emb (ix2 k j)) = _
  refine congrArg _ (funext fun a => Fin.ext ?_)
  match a with
  | ⟨0, _⟩ => show win0_2.index t (0 : Fin 2) * 1024 + 1 * k.val = k.val; rw [f]; omega
  | ⟨1, _⟩ => show win0_2.index t (1 : Fin 2) * 2048 + 1 * j.val = j.val; rw [f]; omega

theorem whole3 (c : Dev nD) (t : Fin cfg0.N) (k : Fin 1024) (j : Fin 2048) :
    iblk m c 3 t (ix2 k j) = (V m c main_v7 : S1024x2048.Idx → EReal) (ix2 k j) := by
  obtain ⟨-, -, -, -, -, -, -, f, -⟩ := idx_facts t
  show (V m c main_v7 : S1024x2048.Idx → EReal) (((cfg0.win 3).blk t).view.emb (ix2 k j)) = _
  refine congrArg _ (funext fun a => Fin.ext ?_)
  match a with
  | ⟨0, _⟩ => show win0_3.index t (0 : Fin 2) * 1024 + 1 * k.val = k.val; rw [f]; omega
  | ⟨1, _⟩ => show win0_3.index t (1 : Fin 2) * 2048 + 1 * j.val = j.val; rw [f]; omega

theorem whole4 (c : Dev nD) (t : Fin cfg0.N) (k : Fin 1024) (j : Fin 2048) :
    iblk m c 4 t (ix2 k j) = (V m c main_v10 : S1024x2048.Idx → EReal) (ix2 k j) := by
  obtain ⟨-, -, -, -, -, -, -, -, f, -⟩ := idx_facts t
  show (V m c main_v10 : S1024x2048.Idx → EReal) (((cfg0.win 4).blk t).view.emb (ix2 k j)) = _
  refine congrArg _ (funext fun a => Fin.ext ?_)
  match a with
  | ⟨0, _⟩ => show win0_4.index t (0 : Fin 2) * 1024 + 1 * k.val = k.val; rw [f]; omega
  | ⟨1, _⟩ => show win0_4.index t (1 : Fin 2) * 2048 + 1 * j.val = j.val; rw [f]; omega

theorem whole5 (c : Dev nD) (t : Fin cfg0.N) (k : Fin 1024) (j : Fin 2048) :
    iblk m c 5 t (ix2 k j) = (V m c main_v13 : S1024x2048.Idx → EReal) (ix2 k j) := by
  obtain ⟨-, -, -, -, -, -, -, -, -, f, -⟩ := idx_facts t
  show (V m c main_v13 : S1024x2048.Idx → EReal) (((cfg0.win 5).blk t).view.emb (ix2 k j)) = _
  refine congrArg _ (funext fun a => Fin.ext ?_)
  match a with
  | ⟨0, _⟩ => show win0_5.index t (0 : Fin 2) * 1024 + 1 * k.val = k.val; rw [f]; omega
  | ⟨1, _⟩ => show win0_5.index t (1 : Fin 2) * 2048 + 1 * j.val = j.val; rw [f]; omega

theorem whole6 (c : Dev nD) (t : Fin cfg0.N) (j : Fin 2048) :
    iblk m c 6 t (ix2 (0 : Fin 1) j) = (V m c main_v16 : S1x2048.Idx → EReal) (ix2 (0 : Fin 1) j) := by
  obtain ⟨-, -, -, -, -, -, -, -, -, -, f, -⟩ := idx_facts t
  show (V m c main_v16 : S1x2048.Idx → EReal) (((cfg0.win 6).blk t).view.emb (ix2 (0 : Fin 1) j)) = _
  refine congrArg _ (funext fun a => Fin.ext ?_)
  match a with
  | ⟨0, _⟩ => show win0_6.index t (0 : Fin 2) * 1 + 1 * 0 = 0; rw [f]
  | ⟨1, _⟩ => show win0_6.index t (1 : Fin 2) * 2048 + 1 * j.val = j.val; rw [f]; omega

theorem whole7 (c : Dev nD) (t : Fin cfg0.N) (j : Fin 2048) :
    iblk m c 7 t (ix2 (0 : Fin 1) j) = (V m c main_v15 : S1x2048.Idx → EReal) (ix2 (0 : Fin 1) j) := by
  obtain ⟨-, -, -, -, -, -, -, -, -, -, -, f, -⟩ := idx_facts t
  show (V m c main_v15 : S1x2048.Idx → EReal) (((cfg0.win 7).blk t).view.emb (ix2 (0 : Fin 1) j)) = _
  refine congrArg _ (funext fun a => Fin.ext ?_)
  match a with
  | ⟨0, _⟩ => show win0_7.index t (0 : Fin 2) * 1 + 1 * 0 = 0; rw [f]
  | ⟨1, _⟩ => show win0_7.index t (1 : Fin 2) * 2048 + 1 * j.val = j.val; rw [f]; omega

theorem whole8 (c : Dev nD) (t : Fin cfg0.N) (q : Fin 1024) :
    iblk m c 8 t (ix2 (0 : Fin 1) q) = (V m c main_v17 : S1x1024.Idx → EReal) (ix2 (0 : Fin 1) q) := by
  obtain ⟨-, -, -, -, -, -, -, -, -, -, -, -, f, -⟩ := idx_facts t
  show (V m c main_v17 : S1x1024.Idx → EReal) (((cfg0.win 8).blk t).view.emb (ix2 (0 : Fin 1) q)) = _
  refine congrArg _ (funext fun a => Fin.ext ?_)
  match a with
  | ⟨0, _⟩ => show win0_8.index t (0 : Fin 2) * 1 + 1 * 0 = 0; rw [f]
  | ⟨1, _⟩ => show win0_8.index t (1 : Fin 2) * 1024 + 1 * q.val = q.val; rw [f]; omega

theorem whole9 (c : Dev nD) (t : Fin cfg0.N) (q : Fin 1024) :
    iblk m c 9 t (ix2 (0 : Fin 1) q) = (V m c main_v18 : S1x1024.Idx → EReal) (ix2 (0 : Fin 1) q) := by
  obtain ⟨-, -, -, -, -, -, -, -, -, -, -, -, -, f⟩ := idx_facts t
  show (V m c main_v18 : S1x1024.Idx → EReal) (((cfg0.win 9).blk t).view.emb (ix2 (0 : Fin 1) q)) = _
  refine congrArg _ (funext fun a => Fin.ext ?_)
  match a with
  | ⟨0, _⟩ => show win0_9.index t (0 : Fin 2) * 1 + 1 * 0 = 0; rw [f]
  | ⟨1, _⟩ => show win0_9.index t (1 : Fin 2) * 1024 + 1 * q.val = q.val; rw [f]; omega

/-! ## What a grid point writes back -/

/-- Entry y of the block point t leaves is the new state where y lies in the result array. -/
theorem point_entry (c : Dev nD) (t : Fin cfg0.N) (y : S512x1024.Idx) :
    E10 (iblk m c 0 t) (iblk m c 1 t) (iblk m c 2 t) (iblk m c 3 t) (iblk m c 6 t) (iblk m c 4 t) (iblk m c 5 t) (iblk m c 7 t)
        (iblk m c 8 t) (iblk m c 9 t) y
      = result m c (place t y) :=
  block_cell (aX m c) (aH m c) (aWm m c) (aWr m c) (aUm m c) (aUr m c) (aBm m c) (aBr m c) (aEu m c) (aEh m c)
    (iblk m c 0 t) (iblk m c 1 t) (iblk m c 2 t) (iblk m c 3 t) (iblk m c 6 t) (iblk m c 4 t) (iblk m c 5 t) (iblk m c 7 t)
    (iblk m c 8 t) (iblk m c 9 t) y (place t y 0) (place t y 1) (place_col t y)
    (fun k => rowsX_at m c t y k)
    (fun k => rowsH_at m c t y k)
    (fun k j => (whole2 m c t k j).trans (meanW_at m c k j))
    (fun k j => (whole3 m c t k j).trans (meanU_at m c k j))
    (fun j => (whole6 m c t j).trans (meanB_at m c j))
    (fun k j => (whole4 m c t k j).trans (spreadW_at m c k j))
    (fun k j => (whole5 m c t k j).trans (spreadU_at m c k j))
    (fun j => (whole7 m c t j).trans (spreadB_at m c j))
    (fun q => (whole8 m c t q).trans (noiseU_at m c q))
    (fun q => (whole9 m c t q).trans (noiseH_at m c q))

/-- Point t writes back block t of the new state. -/
theorem flushed_eq (c : Dev nD) (t : Fin cfg0.N) :
    (dats m 0 c).flushed 10 t = ((cfg0.win 10).blk t).view.read (Elt Ideal) (result m c) := by
  rw [flushed10]
  unfold out0_10
  simp only [View.ld_unit_zero (S := S512x1024) hz, View.ld_unit_zero (S := S1024x2048) hz, View.ld_unit_zero (S := S1x2048) hz,
    View.ld_unit_zero (S := S1x1024) hz]
  funext y
  exact (canon10_eq (iblk m c 0 t) (iblk m c 1 t) (iblk m c 2 t) (iblk m c 3 t) (iblk m c 6 t) (iblk m c 4 t) (iblk m c 5 t)
    (iblk m c 7 t) (iblk m c 8 t) (iblk m c 9 t) y).trans (point_entry m c t y)

/-! ## The four blocks cover the result -/

theorem mem_blk (t : Fin cfg0.N) (i : S2048x1024.Idx) :
    i ∈ ((cfg0.win 10).blk t).view.set ↔ ∀ a : Fin 2, win0_10.index t a * S512x1024.size a ≤ (i a).val
      ∧ (i a).val < win0_10.index t a * S512x1024.size a + S512x1024.size a := by
  show i ∈ ((View.whole main_v19).slice (win0_10.rect t)).set ↔ _
  rw [View.set_slice_whole, Rect.mem_set_unit]
  exact Iff.rfl

/-- Row r of the result lies in the block of point r / 512. -/
theorem covered (i : S2048x1024.Idx) : ∃ t : Fin cfg0.N, (cfg0.win 10).flush t = true ∧ i ∈ ((cfg0.win 10).blk t).view.set := by
  have hi0 : (i 0).val < 2048 := (i 0).isLt
  have hi1 : (i 1).val < 1024 := (i 1).isLt
  have hN : cfg0.N = 4 := N_0
  let t : Fin cfg0.N := ⟨(i 0).val / 512, by rw [hN]; omega⟩
  obtain ⟨-, -, -, -, f0, f1, -⟩ := idx_facts t
  refine ⟨t, flush0_10 t, ?_⟩
  rw [mem_blk]
  intro a
  match a with
  | ⟨0, _⟩ =>
    show win0_10.index t (0 : Fin 2) * 512 ≤ (i 0).val ∧ (i 0).val < win0_10.index t (0 : Fin 2) * 512 + 512
    rw [f0]; show (i 0).val / 512 * 512 ≤ (i 0).val ∧ (i 0).val < (i 0).val / 512 * 512 + 512; omega
  | ⟨1, _⟩ =>
    show win0_10.index t (1 : Fin 2) * 1024 ≤ (i 1).val ∧ (i 1).val < win0_10.index t (1 : Fin 2) * 1024 + 1024
    rw [f1]; omega

/-- After the run the result array is the new state. -/
theorem final (c : Dev nD) : (dats m 0 c).arrAt 10 cfg0.N = result m c :=
  (dats m 0 c).arrAt_eq_of_cover 10 (result m c) (fun t _ => flushed_eq m c t) covered

/-- Every weakly fair execution of the kernel ends with the new state in the result array and the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.RunValue

end
-- ==== Proof.RefValue.lean ====
/-
  The reference's result is the cell's new state: each host operation is read at an index, and what is left is the
  mean and the spread of the pre-activation at the update gate's and the candidate's columns, the host's softplus
  entry by entry, the host's quotient 1 / (1 + exp(−t)) as the logistic function, and the hyperbolic tangent.
  The reset gate's columns are sliced off by the host and reach no entry of the result.
-/
import proofs.«115583_j39084202394377_1_alg».proof.Proof.Gen.ReferenceIdeal.Read
import proofs.«115583_j39084202394377_1_alg».proof.Proof.Spec

noncomputable section

namespace Cert.ReferenceIdeal.RefValue

open Cert.ReferenceIdeal Cert.ReferenceIdeal.Read Idealize.ShloMosaic Idealize.ShloMosaic.ValueIdx Cert.Gru

variable (x0 x1 : (⟨S2048x1024, .f32⟩ : BufTy).Contents (Elt Ideal))
variable (x2 x3 x4 x5 : (⟨S1024x3072, .f32⟩ : BufTy).Contents (Elt Ideal))
variable (x6 x7 : (⟨S3072, .f32⟩ : BufTy).Contents (Elt Ideal))
variable (x9 x10 : (⟨S1024, .f32⟩ : BufTy).Contents (Elt Ideal))

/-! ## Where each product reads its operands, and where the slices and the row broadcasts read -/

theorem lidx0 (r : Fin 2048) (j : Fin 3072) (k : Fin 1024) : lidx_main_v0 (ix2 r j) k = ix2 r k :=
  funext fun a => match a with | ⟨0, _⟩ => rfl | ⟨1, _⟩ => rfl
theorem ridx0 (r : Fin 2048) (j : Fin 3072) (k : Fin 1024) : ridx_main_v0 (ix2 r j) k = ix2 k j :=
  funext fun a => match a with | ⟨0, _⟩ => rfl | ⟨1, _⟩ => rfl
theorem lidx1 (r : Fin 2048) (j : Fin 3072) (k : Fin 1024) : lidx_main_v1 (ix2 r j) k = ix2 r k :=
  funext fun a => match a with | ⟨0, _⟩ => rfl | ⟨1, _⟩ => rfl
theorem ridx1 (r : Fin 2048) (j : Fin 3072) (k : Fin 1024) : ridx_main_v1 (ix2 r j) k = ix2 k j :=
  funext fun a => match a with | ⟨0, _⟩ => rfl | ⟨1, _⟩ => rfl
theorem lidx12 (r : Fin 2048) (j : Fin 3072) (k : Fin 1024) : lidx_main_v12 (ix2 r j) k = ix2 r k :=
  funext fun a => match a with | ⟨0, _⟩ => rfl | ⟨1, _⟩ => rfl
theorem ridx12 (r : Fin 2048) (j : Fin 3072) (k : Fin 1024) : ridx_main_v12 (ix2 r j) k = ix2 k j :=
  funext fun a => match a with | ⟨0, _⟩ => rfl | ⟨1, _⟩ => rfl
theorem lidx14 (r : Fin 2048) (j : Fin 3072) (k : Fin 1024) : lidx_main_v14 (ix2 r j) k = ix2 r k :=
  funext fun a => match a with | ⟨0, _⟩ => rfl | ⟨1, _⟩ => rfl
theorem ridx14 (r : Fin 2048) (j : Fin 3072) (k : Fin 1024) : ridx_main_v14 (ix2 r j) k = ix2 k j :=
  funext fun a => match a with | ⟨0, _⟩ => rfl | ⟨1, _⟩ => rfl

theorem idx_bias (r : Fin 2048) (j : Fin 3072) : idx_main_v3 (idx_main_v4 (ix2 r j)) = ix1 j :=
  funext fun a => match a with | ⟨0, _⟩ => rfl
theorem idx_bsig (r : Fin 2048) (j : Fin 3072) : idx_main_v16 (idx_main_v17 (ix2 r j)) = ix1 j :=
  funext fun a => match a with | ⟨0, _⟩ => rfl
theorem idx_eu (r : Fin 2048) (c : Fin 1024) : idx_main_v35 (idx_main_v36 (ix2 r c)) = ix1 c :=
  funext fun a => match a with | ⟨0, _⟩ => rfl
theorem idx_eh (r : Fin 2048) (c : Fin 1024) : idx_main_v45 (idx_main_v46 (ix2 r c)) = ix1 c :=
  funext fun a => match a with | ⟨0, _⟩ => rfl

theorem idx_mu_u (r : Fin 2048) (c : Fin 1024) : idx_main_v20 (ix2 r c) = ix2 r (colU c) :=
  funext fun a => match a with | ⟨0, _⟩ => rfl | ⟨1, _⟩ => rfl
theorem idx_mu_h (r : Fin 2048) (c : Fin 1024) : idx_main_v21 (ix2 r c) = ix2 r (colH c) :=
  funext fun a => match a with | ⟨0, _⟩ => rfl | ⟨1, _⟩ => rfl
theorem idx_sig_u (r : Fin 2048) (c : Fin 1024) : idx_main_v23 (ix2 r c) = ix2 r (colU c) :=
  funext fun a => match a with | ⟨0, _⟩ => rfl | ⟨1, _⟩ => rfl
theorem idx_sig_h (r : Fin 2048) (c : Fin 1024) : idx_main_v24 (ix2 r c) = ix2 r (colH c) :=
  funext fun a => match a with | ⟨0, _⟩ => rfl | ⟨1, _⟩ => rfl

/-! ## The host's softplus, entry by entry -/

theorem softplus_W (i : S1024x3072.Idx) : val_main_v6 (F := Ideal) x3 i = sp (x3 i) := by
  rw [val_main_v6_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply]
  rfl

theorem softplus_U (i : S1024x3072.Idx) : val_main_v8 (F := Ideal) x5 i = sp (x5 i) := by
  rw [val_main_v8_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply]
  rfl

theorem softplus_b (i : S3072.Idx) : val_main_v10 (F := Ideal) x7 i = sp (x7 i) := by
  rw [val_main_v10_apply, val_main_call2_v4_apply, val_main_call2_v6_apply, val_main_call2_v11_apply, val_main_call2_v1_apply,
    val_main_call2_v10_apply, val_main_call2_v9_apply, val_main_call2_v8_apply, val_main_call2_v7_apply, val_main_call2_v3_apply,
    val_main_call2_v0_apply, val_main_call2_v2_apply, val_main_call2_v5_apply, val_main_call2_cst_apply]
  rfl

/-! ## The mean and the spread of the pre-activation, at any gate column -/

theorem mean_eq (r : Fin 2048) (j : Fin 3072) :
    val_main_v5 (F := Ideal) x0 x1 x2 x4 x6 (ix2 r j) = mean x0 x1 x2 x4 x6 r j := by
  rw [val_main_v5_apply, val_main_v2_apply, val_main_v0_apply, val_main_v1_apply, val_main_v4_apply, val_main_v3_apply, idx_bias]
  simp only [lidx0, ridx0, lidx1, ridx1]
  rfl

theorem spread_eq (r : Fin 2048) (j : Fin 3072) :
    val_main_v18 (F := Ideal) x0 x1 x3 x5 x7 (ix2 r j) = spread x0 x1 x3 x5 x7 r j := by
  rw [val_main_v18_apply, val_main_v15_apply, val_main_v12_apply, val_main_v14_apply, val_main_v17_apply, val_main_v16_apply, idx_bsig,
    softplus_b]
  simp only [lidx12, ridx12, lidx14, ridx14, val_main_v11_apply, val_main_v13_apply, val_main_v7_apply, val_main_v9_apply,
    softplus_W, softplus_U]
  rfl

/-! ## The gates and the new state -/

/-- The host's update gate: its quotient 1 / (1 + exp(−t)) is the logistic function. -/
theorem gateU_eq (r : Fin 2048) (c : Fin 1024) :
    val_main_v44 (F := Ideal) x0 x1 x2 x3 x4 x5 x6 x7 x9 (ix2 r c) = gateU x0 x1 x2 x3 x4 x5 x6 x7 x9 r c := by
  rw [val_main_v44_apply, val_main_v43_apply, val_main_cst_2_apply, val_main_v42_apply, val_main_v41_apply, val_main_cst_1_apply,
    val_main_v40_apply, val_main_v39_apply, val_main_v38_apply, val_main_v20_apply, val_main_v37_apply, val_main_v23_apply,
    val_main_v36_apply, val_main_v35_apply, idx_eu, idx_mu_u, idx_sig_u, mean_eq, spread_eq]
  exact logistic_host _

/-- The host's candidate state. -/
theorem cand_eq (r : Fin 2048) (c : Fin 1024) :
    val_main_v49 (F := Ideal) x0 x1 x2 x3 x4 x5 x6 x7 x10 (ix2 r c) = cand x0 x1 x2 x3 x4 x5 x6 x7 x10 r c := by
  rw [val_main_v49_apply, val_main_v48_apply, val_main_v21_apply, val_main_v47_apply, val_main_v24_apply, val_main_v46_apply,
    val_main_v45_apply, idx_eh, idx_mu_h, idx_sig_h, mean_eq, spread_eq]
  rfl

/-- The reference's result is the new state of the cell. -/
theorem result_eq :
    val_main_v54 (F := Ideal) x0 x1 x2 x3 x4 x5 x6 x7 x9 x10 = newState x0 x1 x2 x3 x4 x5 x6 x7 x9 x10 := by
  funext i
  obtain ⟨r, c, rfl⟩ : ∃ (r : Fin 2048) (c : Fin 1024), i = ix2 r c := ⟨i 0, i 1, eq_ix2 i⟩
  rw [val_main_v54_apply, val_main_v50_apply, val_main_v53_apply, val_main_v52_apply, val_main_v51_apply, val_main_cst_3_apply,
    gateU_eq, cand_eq]
  rfl

end Cert.ReferenceIdeal.RefValue

end
-- ==== Proof.lean ====
/-
  A Bayesian GRU cell in its local-reparameterisation form: kernel and reference compute the same new state.

  Both programs form, for each batch row r and gate column j, the mean
      (Σₖ x(r,k)·Wμ(k,j) + Σₖ h(r,k)·Uμ(k,j)) + bμ(j)
  and the spread
      (Σₖ x(r,k)²·softplus(Wρ(k,j))² + Σₖ h(r,k)²·softplus(Uρ(k,j))²) + softplus(bρ(j))
  of a pre-activation, and from them the update gate u = logistic(mean + spread·εᵤ) on the second third of the columns
  and the candidate h̃ = tanh(mean + spread·εₕ) on the last third; the new state is u·h + (1 − u)·h̃.

  The reference computes all three thirds and slices afterwards; its first third (the reset gate) reaches no entry of
  the result. The kernel cuts the first third off the weights and biases beforehand, which changes no kept entry: an
  entry of a matrix product depends on one column of the right factor, and softplus and squaring act entry by entry.
  The kernel narrows its operands to bf16 before multiplying, which on the extended reals is the identity; it works
  on blocks of 512 batch rows, and an entry of the result depends on one batch row only. The reference spells the
  logistic function as 1 / (1 + exp(−t)), which is the function the kernel applies. Both programs add in the same
  order, so no law is used that would need the entries to be finite, and the precondition is never opened.

  Proof/Spec.lean states the new state entry by entry; Proof/RefValue.lean reads the reference's operations down to
  it; Proof/KernelCell.lean reads one block of the kernel's body down to it; Proof/KernelRun.lean reads the arrays
  the host prepares, places the four blocks in the result array, and names the kernel's run. Here the two runs are set
  side by side.
-/
import proofs.«115583_j39084202394377_1_alg».proof.Defs
import proofs.«115583_j39084202394377_1_alg».proof.Proof.Gen.Kernel
import proofs.«115583_j39084202394377_1_alg».proof.Proof.Gen.Kernel.Skeleton
import proofs.«115583_j39084202394377_1_alg».proof.Proof.Gen.Kernel.Launch
import proofs.«115583_j39084202394377_1_alg».proof.Proof.Gen.Kernel.Points
import proofs.«115583_j39084202394377_1_alg».proof.Proof.Gen.Kernel.Frame
import proofs.«115583_j39084202394377_1_alg».proof.Proof.Gen.KernelIdeal
import proofs.«115583_j39084202394377_1_alg».proof.Proof.Gen.KernelIdeal.Skeleton
import proofs.«115583_j39084202394377_1_alg».proof.Proof.Gen.KernelIdeal.Launch
import proofs.«115583_j39084202394377_1_alg».proof.Proof.Gen.KernelIdeal.Points
import proofs.«115583_j39084202394377_1_alg».proof.Proof.Gen.KernelIdeal.Frame
import proofs.«115583_j39084202394377_1_alg».proof.Proof.Gen.KernelIdeal.Value
import proofs.«115583_j39084202394377_1_alg».proof.Proof.Gen.ReferenceIdeal
import proofs.«115583_j39084202394377_1_alg».proof.Proof.Gen.ReferenceIdeal.Run
import proofs.«115583_j39084202394377_1_alg».proof.Proof.Gen.ReferenceIdeal.Read
import proofs.«115583_j39084202394377_1_alg».proof.Proof.Gen.Pre_finite_inputs
import proofs.«115583_j39084202394377_1_alg».proof.Proof.KernelRun
import proofs.«115583_j39084202394377_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, the kernel's result array and the reference's are both the new state of the cell. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, -, e9, e10⟩ := hagree c
  rw [Cert.ReferenceIdeal.Read.val_main_v54_eq, Cert.ReferenceIdeal.RefValue.result_eq, e0, e1, e2, e3, e4, e5, e6, e7, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
